-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v63)) (v1 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_v67) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S100000 : Shape := ⟨1, ![100000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1200000 32) (main_arg2 : IVec S100000 32) (main_arg3 : FVec F S64x64 .f32) (main_arg4 : FVec F S64 .f32) (main_arg5 : FVec F S64x64 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_v13 main_v16
-- ==== Kernel.lean ====
abbrev S100000x64 : Shape := ⟨2, ![100000, 64]⟩
abbrev S2x1200000 : Shape := ⟨2, ![2, 1200000]⟩
abbrev S100000 : Shape := ⟨1, ![100000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S10000x64 : Shape := ⟨2, ![10000, 64]⟩
abbrev S1200000x64 : Shape := ⟨2, ![1200000, 64]⟩
abbrev S100000x1 : Shape := ⟨2, ![100000, 1]⟩
abbrev S1x64 : Shape := ⟨2, ![1, 64]⟩
abbrev S10000x1 : Shape := ⟨2, ![10000, 1]⟩
abbrev S64x128 : Shape := ⟨2, ![64, 128]⟩

abbrev nBuf : Space → Nat
  | .hbm => 90
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1x1200000, .i32⟩
  | .hbm, ⟨8, _⟩ => ⟨S1200000, .i32⟩
  | .hbm, ⟨9, _⟩ => ⟨S1x1200000, .i32⟩
  | .hbm, ⟨10, _⟩ => ⟨S1200000, .i32⟩
  | .hbm, ⟨11, _⟩ => ⟨S_, .f32⟩
  | .hbm, ⟨12, _⟩ => ⟨S1200000, .f32⟩
  | .hbm, ⟨13, _⟩ => ⟨S_, .f32⟩
  | .hbm, ⟨14, _⟩ => ⟨S100000, .f32⟩
  | .hbm, ⟨15, _⟩ => ⟨S1200000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1200000, .i32⟩
  | .hbm, ⟨24, _⟩ => ⟨S1200000, .i1⟩
  | .hbm, ⟨25, _⟩ => ⟨S_, .i32⟩
  | .hbm, ⟨26, _⟩ => ⟨S1200000, .i32⟩
  | .hbm, ⟨27, _⟩ => ⟨S1200000, .i32⟩
  | .hbm, ⟨28, _⟩ => ⟨S1200000, .i32⟩
  | .hbm, ⟨29, _⟩ => ⟨S1200000x1, .i32⟩
  | .hbm, ⟨30, _⟩ => ⟨S1200000, .f32⟩
  | .hbm, ⟨31, _⟩ => ⟨S_, .i32⟩
  | .hbm, ⟨32, _⟩ => ⟨S1200000, .i32⟩
  | .hbm, ⟨33, _⟩ => ⟨S1200000, .i1⟩
  | .hbm, ⟨34, _⟩ => ⟨S_, .i32⟩
  | .hbm, ⟨35, _⟩ => ⟨S1200000, .i32⟩
  | .hbm, ⟨36, _⟩ => ⟨S1200000, .i32⟩
  | .hbm, ⟨37, _⟩ => ⟨S1200000, .i32⟩
  | .hbm, ⟨38, _⟩ => ⟨S1200000x1, .i32⟩
  | .hbm, ⟨39, _⟩ => ⟨S1200000, .f32⟩
  | .hbm, ⟨40, _⟩ => ⟨S1200000, .f32⟩
  | .hbm, ⟨41, _⟩ => ⟨S100000x64, .f32⟩
  | .hbm, ⟨42, _⟩ => ⟨S_, .i32⟩
  | .hbm, ⟨43, _⟩ => ⟨S1200000, .i32⟩
  | .hbm, ⟨44, _⟩ => ⟨S1200000, .i1⟩
  | .hbm, ⟨45, _⟩ => ⟨S_, .i32⟩
  | .hbm, ⟨46, _⟩ => ⟨S1200000, .i32⟩
  | .hbm, ⟨47, _⟩ => ⟨S1200000, .i32⟩
  | .hbm, ⟨48, _⟩ => ⟨S1200000, .i32⟩
  | .hbm, ⟨49, _⟩ => ⟨S1200000x1, .i32⟩
  | .hbm, ⟨50, _⟩ => ⟨S1200000x64, .f32⟩
  | .hbm, ⟨51, _⟩ => ⟨S1200000x1, .f32⟩
  | .hbm, ⟨52, _⟩ => ⟨S1200000x64, .f32⟩
  | .hbm, ⟨53, _⟩ => ⟨S1200000x64, .f32⟩
  | .hbm, ⟨54, _⟩ => ⟨S_, .f32⟩
  | .hbm, ⟨55, _⟩ => ⟨S100000x64, .f32⟩
  | .hbm, ⟨56, _⟩ => ⟨S1200000x1, .i32⟩
  | .hbm, ⟨57, _⟩ => ⟨S100000x64, .f32⟩
  | .hbm, ⟨58, _⟩ => ⟨S100000x1, .f32⟩
  | .hbm, ⟨59, _⟩ => ⟨S1x64, .f32⟩
  | .hbm, ⟨60, _⟩ => ⟨S100000x64, .f32⟩
  | .hbm, ⟨61, _⟩ => ⟨S_, .f32⟩
  | .hbm, ⟨62, _⟩ => ⟨S64x64, .f32⟩
  | .hbm, ⟨63, _⟩ => ⟨S100000x1, .i32⟩
  | .hbm, ⟨64, _⟩ => ⟨S64x64, .f32⟩
  | .hbm, ⟨65, _⟩ => ⟨S100000x64, .f32⟩
  | .hbm, ⟨66, _⟩ => ⟨S_, .i32⟩
  | .hbm, ⟨67, _⟩ => ⟨S1200000, .i32⟩
  | .hbm, ⟨68, _⟩ => ⟨S1200000, .i1⟩
  | .hbm, ⟨69, _⟩ => ⟨S_, .i32⟩
  | .hbm, ⟨70, _⟩ => ⟨S1200000, .i32⟩
  | .hbm, ⟨71, _⟩ => ⟨S1200000, .i32⟩
  | .hbm, ⟨72, _⟩ => ⟨S1200000, .i32⟩
  | .hbm, ⟨73, _⟩ => ⟨S1200000x1, .i32⟩
  | .hbm, ⟨74, _⟩ => ⟨S1200000x64, .f32⟩
  | .hbm, ⟨75, _⟩ => ⟨S1200000x1, .f32⟩
  | .hbm, ⟨76, _⟩ => ⟨S1200000x64, .f32⟩
  | .hbm, ⟨77, _⟩ => ⟨S1200000x64, .f32⟩
  | .hbm, ⟨78, _⟩ => ⟨S_, .f32⟩
  | .hbm, ⟨79, _⟩ => ⟨S100000x64, .f32⟩
  | .hbm, ⟨80, _⟩ => ⟨S1200000x1, .i32⟩
  | .hbm, ⟨81, _⟩ => ⟨S100000x64, .f32⟩
  | .hbm, ⟨82, _⟩ => ⟨S100000x1, .f32⟩
  | .hbm, ⟨83, _⟩ => ⟨S1x64, .f32⟩
  | .hbm, ⟨84, _⟩ => ⟨S100000x64, .f32⟩
  | .hbm, ⟨85, _⟩ => ⟨S_, .f32⟩
  | .hbm, ⟨86, _⟩ => ⟨S64x64, .f32⟩
  | .hbm, ⟨87, _⟩ => ⟨S100000x1, .i32⟩
  | .hbm, ⟨88, _⟩ => ⟨S64x64, .f32⟩
  | .hbm, ⟨89, _⟩ => ⟨S64x128, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_9 : Ref sig .tc := ⟨.hbm, 66, rfl⟩
abbrev main_v48 : Ref sig .tc := ⟨.hbm, 67, rfl⟩
abbrev main_v49 : Ref sig .tc := ⟨.hbm, 68, rfl⟩
abbrev main_c_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_11 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_12 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S64x64 : S_.BroadcastsInDim S64x64 (![] : Fin 0 → Fin S64x64.rank)
  bcast_S100000_S100000x1_0 : S100000.BroadcastsInDim S100000x1 (![0] : Fin 1 → Fin S100000x1.rank)
  concatenates_S64x64_S64x64_S64x128_d1 : Shape.Concatenates [S64x64, S64x64] S64x128 1
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  dot_S10000x64_S64x64_S10000x64_1_0_0_1_n_n_wf : DotDims.WF S10000x64 S64x64 S10000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S64x64_S100000x1_S100000x64_1_0_0_1_wf : ScatterDims.WF S64x64 S100000x1 S100000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v27) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v47) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S100000 : Shape := ⟨1, ![100000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S100000x1 : Shape := ⟨2, ![100000, 1]⟩
abbrev S1x64 : Shape := ⟨2, ![1, 64]⟩
abbrev S64x128 : Shape := ⟨2, ![64, 128]⟩

abbrev nBuf : Space → Nat
  | .hbm => 124
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1x1200000, .i32⟩
  | .hbm, ⟨8, _⟩ => ⟨S1200000, .i32⟩
  | .hbm, ⟨9, _⟩ => ⟨S1x1200000, .i32⟩
  | .hbm, ⟨10, _⟩ => ⟨S1200000, .i32⟩
  | .hbm, ⟨11, _⟩ => ⟨S_, .f32⟩
  | .hbm, ⟨12, _⟩ => ⟨S1200000, .f32⟩
  | .hbm, ⟨13, _⟩ => ⟨S_, .f32⟩
  | .hbm, ⟨14, _⟩ => ⟨S100000, .f32⟩
  | .hbm, ⟨15, _⟩ => ⟨S1200000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S100000x64, .f32⟩
  | .hbm, ⟨22, _⟩ => ⟨S_, .i32⟩
  | .hbm, ⟨23, _⟩ => ⟨S1200000, .i32⟩
  | .hbm, ⟨24, _⟩ => ⟨S1200000, .i1⟩
  | .hbm, ⟨25, _⟩ => ⟨S_, .i32⟩
  | .hbm, ⟨26, _⟩ => ⟨S1200000, .i32⟩
  | .hbm, ⟨27, _⟩ => ⟨S1200000, .i32⟩
  | .hbm, ⟨28, _⟩ => ⟨S1200000, .i32⟩
  | .hbm, ⟨29, _⟩ => ⟨S1200000x1, .i32⟩
  | .hbm, ⟨30, _⟩ => ⟨S1200000, .f32⟩
  | .hbm, ⟨31, _⟩ => ⟨S_, .i32⟩
  | .hbm, ⟨32, _⟩ => ⟨S1200000, .i32⟩
  | .hbm, ⟨33, _⟩ => ⟨S1200000, .i1⟩
  | .hbm, ⟨34, _⟩ => ⟨S_, .i32⟩
  | .hbm, ⟨35, _⟩ => ⟨S1200000, .i32⟩
  | .hbm, ⟨36, _⟩ => ⟨S1200000, .i32⟩
  | .hbm, ⟨37, _⟩ => ⟨S1200000, .i32⟩
  | .hbm, ⟨38, _⟩ => ⟨S1200000x1, .i32⟩
  | .hbm, ⟨39, _⟩ => ⟨S1200000, .f32⟩
  | .hbm, ⟨40, _⟩ => ⟨S1200000, .f32⟩
  | .hbm, ⟨41, _⟩ => ⟨S_, .i32⟩
  | .hbm, ⟨42, _⟩ => ⟨S1200000, .i32⟩
  | .hbm, ⟨43, _⟩ => ⟨S1200000, .i1⟩
  | .hbm, ⟨44, _⟩ => ⟨S_, .i32⟩
  | .hbm, ⟨45, _⟩ => ⟨S1200000, .i32⟩
  | .hbm, ⟨46, _⟩ => ⟨S1200000, .i32⟩
  | .hbm, ⟨47, _⟩ => ⟨S1200000, .i32⟩
  | .hbm, ⟨48, _⟩ => ⟨S1200000x1, .i32⟩
  | .hbm, ⟨49, _⟩ => ⟨S1200000x64, .f32⟩
  | .hbm, ⟨50, _⟩ => ⟨S1200000x1, .f32⟩
  | .hbm, ⟨51, _⟩ => ⟨S1200000x64, .f32⟩
  | .hbm, ⟨52, _⟩ => ⟨S1200000x64, .f32⟩
  | .hbm, ⟨53, _⟩ => ⟨S_, .f32⟩
  | .hbm, ⟨54, _⟩ => ⟨S100000x64, .f32⟩
  | .hbm, ⟨55, _⟩ => ⟨S1200000x1, .i32⟩
  | .hbm, ⟨56, _⟩ => ⟨S100000x64, .f32⟩
  | .hbm, ⟨57, _⟩ => ⟨S100000, .f32⟩
  | .hbm, ⟨58, _⟩ => ⟨S100000x1, .f32⟩
  | .hbm, ⟨59, _⟩ => ⟨S100000x64, .f32⟩
  | .hbm, ⟨60, _⟩ => ⟨S100000x64, .f32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S64x64, .f32⟩
  | .hbm, ⟨70, _⟩ => ⟨S100000x1, .i32⟩
  | .hbm, ⟨71, _⟩ => ⟨S64x64, .f32⟩
  | .hbm, ⟨72, _⟩ => ⟨S100000x64, .f32⟩
  | .hbm, ⟨73, _⟩ => ⟨S_, .i32⟩
  | .hbm, ⟨74, _⟩ => ⟨S1200000, .i32⟩
  | .hbm, ⟨75, _⟩ => ⟨S1200000, .i1⟩
  | .hbm, ⟨76, _⟩ => ⟨S_, .i32⟩
  | .hbm, ⟨77, _⟩ => ⟨S1200000, .i32⟩
  | .hbm, ⟨78, _⟩ => ⟨S1200000, .i32⟩
  | .hbm, ⟨79, _⟩ => ⟨S1200000, .i32⟩
  | .hbm, ⟨80, _⟩ => ⟨S1200000x1, .i32⟩
  | .hbm, ⟨81, _⟩ => ⟨S1200000, .f32⟩
  | .hbm, ⟨82, _⟩ => ⟨S_, .i32⟩
  | .hbm, ⟨83, _⟩ => ⟨S1200000, .i32⟩
  | .hbm, ⟨84, _⟩ => ⟨S1200000, .i1⟩
  | .hbm, ⟨85, _⟩ => ⟨S_, .i32⟩
  | .hbm, ⟨86, _⟩ => ⟨S1200000, .i32⟩
  | .hbm, ⟨87, _⟩ => ⟨S1200000, .i32⟩
  | .hbm, ⟨88, _⟩ => ⟨S1200000, .i32⟩
  | .hbm, ⟨89, _⟩ => ⟨S1200000x1, .i32⟩
  | .hbm, ⟨90, _⟩ => ⟨S1200000, .f32⟩
  | .hbm, ⟨91, _⟩ => ⟨S1200000, .f32⟩
  | .hbm, ⟨92, _⟩ => ⟨S_, .i32⟩
  | .hbm, ⟨93, _⟩ => ⟨S1200000, .i32⟩
  | .hbm, ⟨94, _⟩ => ⟨S1200000, .i1⟩
  | .hbm, ⟨95, _⟩ => ⟨S_, .i32⟩
  | .hbm, ⟨96, _⟩ => ⟨S1200000, .i32⟩
  | .hbm, ⟨97, _⟩ => ⟨S1200000, .i32⟩
  | .hbm, ⟨98, _⟩ => ⟨S1200000, .i32⟩
  | .hbm, ⟨99, _⟩ => ⟨S1200000x1, .i32⟩
  | .hbm, ⟨100, _⟩ => ⟨S1200000x64, .f32⟩
  | .hbm, ⟨101, _⟩ => ⟨S1200000x1, .f32⟩
  | .hbm, ⟨102, _⟩ => ⟨S1200000x64, .f32⟩
  | .hbm, ⟨103, _⟩ => ⟨S1200000x64, .f32⟩
  | .hbm, ⟨104, _⟩ => ⟨S_, .f32⟩
  | .hbm, ⟨105, _⟩ => ⟨S100000x64, .f32⟩
  | .hbm, ⟨106, _⟩ => ⟨S1200000x1, .i32⟩
  | .hbm, ⟨107, _⟩ => ⟨S100000x64, .f32⟩
  | .hbm, ⟨108, _⟩ => ⟨S100000, .f32⟩
  | .hbm, ⟨109, _⟩ => ⟨S100000x1, .f32⟩
  | .hbm, ⟨110, _⟩ => ⟨S100000x64, .f32⟩
  | .hbm, ⟨111, _⟩ => ⟨S100000x64, .f32⟩
  | .hbm, ⟨112, _⟩ => ⟨S100000x64, .f32⟩
  | .hbm, ⟨113, _⟩ => ⟨S1x64, .f32⟩
  | .hbm, ⟨114, _⟩ => ⟨S100000x64, .f32⟩
  | .hbm, ⟨115, _⟩ => ⟨S100000x64, .f32⟩
  | .hbm, ⟨116, _⟩ => ⟨S_, .f32⟩
  | .hbm, ⟨117, _⟩ => ⟨S100000x64, .f32⟩
  | .hbm, ⟨118, _⟩ => ⟨S100000x64, .f32⟩
  | .hbm, ⟨119, _⟩ => ⟨S_, .f32⟩
  | .hbm, ⟨120, _⟩ => ⟨S64x64, .f32⟩
  | .hbm, ⟨121, _⟩ => ⟨S100000x1, .i32⟩
  | .hbm, ⟨122, _⟩ => ⟨S64x64, .f32⟩
  | .hbm, ⟨123, _⟩ => ⟨S64x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call0_cst : Ref sig .tc := ⟨.hbm, 65, rfl⟩
abbrev main_call0_v0 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_9 : Ref sig .tc := ⟨.hbm, 73, rfl⟩
abbrev main_v53 : Ref sig .tc := ⟨.hbm, 74, rfl⟩
abbrev main_v54 : Ref sig .tc := ⟨.hbm, 75, rfl⟩
abbrev main_c_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_11 : Ref sig .tc := ⟨.hbm, 82, rfl⟩
abbrev main_v60 : Ref sig .tc := ⟨.hbm, 83, rfl⟩
abbrev main_v61 : Ref sig .tc := ⟨.hbm, 84, rfl⟩
abbrev main_c_12 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_13 : Ref sig .tc := ⟨.hbm, 92, rfl⟩
abbrev main_v68 : Ref sig .tc := ⟨.hbm, 93, rfl⟩
abbrev main_v69 : Ref sig .tc := ⟨.hbm, 94, rfl⟩
abbrev main_c_14 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_15 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_call1_cst : Ref sig .tc := ⟨.hbm, 116, rfl⟩
abbrev main_call1_v0 : Ref sig .tc := ⟨.hbm, 117, rfl⟩
abbrev main_v89 : Ref sig .tc := ⟨.hbm, 118, rfl⟩
abbrev main_cst_16 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  concatenates_S64x64_S64x64_S64x128_d1 : Shape.Concatenates [S64x64, S64x64] S64x128 1
  scatter_S100000_S1200000x1_S1200000_n_0_0_1_wf : ScatterDims.WF S100000 S1200000x1 S1200000 [] [0] [0] 1
  dot_S100000x64_S64x64_S100000x64_1_0_0_1_n_n_wf : DotDims.WF S100000x64 S64x64 S100000x64 [1] [0] [0] [1] [] []
  gather_S100000_S1200000x1_S1200000_n_0_n_n_0_1_1_wf : GatherDims.WF S100000 S1200000x1 S1200000 [] [0] [] [0] [] 1 ![1]
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S64x64_S100000x1_S100000x64_1_0_0_1_wf : ScatterDims.WF S64x64 S100000x1 S100000x64 [1] [0] [0] 1

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf

class Facts : Prop extends Facts₀ where

variable [Facts]
-- ==== Proof.Spec.lean ====
/-
  The two dense steps of a graph-convolution layer, as whole-array functions.

  A layer maps node features x (one row per node) to relu((agg + h · s) + b), where h = x · W is the projected
  feature table, agg the edge-weighted sum of neighbours' rows of h, s the per-node self-loop weight (one number per
  row, kept as a one-column table) and b the bias (one number per column, kept as a one-row table). Gathering along
  edges and summing into nodes is the same host computation in both programs; the projection and the combination are
  where they differ in form, and these two functions state them once: `dense` is the matrix product, `combine` the
  sum in the order ((agg + h · s) + b) followed by the maximum with zero.
-/
import proofs.«157126_j137438953659_1_alg».proof.Proof.Gen.ReferenceIdeal
import Idealize.ShloMosaic.PureOps.Ideal

noncomputable section

namespace Cert.Spec

open Cert.ReferenceIdeal Cert.ReferenceIdeal.Gen Idealize.ShloMosaic

variable {F : FTy → Type} [FloatOps F]

/-- The projected feature table x · W: entry (n, j) is the sum over k of x (n, k) · W (k, j). -/
def dense (x : (⟨S100000x64, .f32⟩ : BufTy).Contents (Elt F)) (w : (⟨S64x64, .f32⟩ : BufTy).Contents (Elt F)) :
    (⟨S100000x64, .f32⟩ : BufTy).Contents (Elt F) :=
  Host.dotGeneral dot_S100000x64_S64x64_S100000x64_1_0_0_1_n_n none x w

/-- A layer's output from its four tables: entry (n, j) is max ((agg (n, j) + h (n, j) · s (n, 0)) + b (0, j), 0). -/
def combine (agg h : (⟨S100000x64, .f32⟩ : BufTy).Contents (Elt F)) (s : (⟨S100000x1, .f32⟩ : BufTy).Contents (Elt F))
    (b : (⟨S1x64, .f32⟩ : BufTy).Contents (Elt F)) : (⟨S100000x64, .f32⟩ : BufTy).Contents (Elt F) :=
  maximumf
    (addf (addf agg (mulf h (broadcastInDim S100000x64 ![0, 1] bcast_S100000x1_S100000x64_0_1 s)))
      (broadcastInDim S100000x64 ![0, 1] bcast_S1x64_S100000x64_0_1 b))
    (broadcastInDim S100000x64 ![] bcast_S_S100000x64 (constant S_ .f32 0x00000000#32))

end Cert.Spec

end
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.RegionDense.lean ====
/-
  The projection regions, read as whole arrays.

  Each of the two projection calls walks ten blocks of 10000 rows; at block t the body multiplies rows
  10000 t … 10000 t + 9999 of its left operand by the whole 64 × 64 right operand and writes the product back to the same
  rows of the result. The ten blocks tile the 100000 rows, so after the call the result array is the matrix product
  of the two operand arrays as the call found them.
-/
import proofs.«157126_j137438953659_1_alg».proof.Proof.Gen.KernelIdeal.Frame
import proofs.«157126_j137438953659_1_alg».proof.Proof.Spec
import proofs.«157126_j137438953659_1_alg».proof.Proof.LibPlainDot
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.RegionDense

open Cert.KernelIdeal Cert.KernelIdeal.Gen

open Idealize.ShloMosaic.ValueIdx

variable (V : (c : Dev nD) → (b : Ref sig .tc) → Buf (Elt Ideal) ((c : Thread nD τ).loc b))

/-! ## One entry of a block's product -/

/-- The offsets of a block's one whole store are zero on both axes. -/
theorem zero_off : (![0, 0] : Fin 2 → Nat) = fun _ => 0 := funext fun a => by fin_cases a <;> rfl

/-- The first projection's payload at entry (a, b): the sum over k of x0 (a, k) · x1 (k, b). The two roundings to the
    narrower format are the identity at the ideal values, and the accumulator is zero. -/
theorem pay0_apply (x0 : Vec Ideal S10000x64 .f32) (x1 : Vec Ideal S64x64 .f32) (a : Fin 10000) (b : Fin 64) :
    (k0_pay1 (F := Ideal) x0 x1) (ix2 a b) = ∑ k : Fin 64, x0 (ix2 a k) * x1 (ix2 k b) := by
  unfold k0_pay1
  exact Cert.LibPlainDot.matmul_zero_apply dot_S10000x64_S64x64_S10000x64_1_0_0_1_n_n rfl rfl rfl rfl rfl rfl none _ _ a b

/-- The second projection's payload at entry (a, b): the same sum (its extra cast is to the same shape). -/
theorem pay2_apply (x0 : Vec Ideal S10000x64 .f32) (x1 : Vec Ideal S64x64 .f32) (a : Fin 10000) (b : Fin 64) :
    (k2_pay1 (F := Ideal) x0 x1) (ix2 a b) = ∑ k : Fin 64, x0 (ix2 a k) * x1 (ix2 k b) := by
  unfold k2_pay1
  rw [shapeCast_self]
  exact Cert.LibPlainDot.matmul_zero_apply dot_S10000x64_S64x64_S10000x64_1_0_0_1_n_n rfl rfl rfl rfl rfl rfl none _ _ a b

/-- The matrix product x · W at entry (n, j): the sum over k of x (n, k) · W (k, j). -/
theorem dense_apply (x : (⟨S100000x64, .f32⟩ : BufTy).Contents (Elt Ideal)) (w : (⟨S64x64, .f32⟩ : BufTy).Contents (Elt Ideal))
    (n : Fin 100000) (j : Fin 64) :
    Cert.Spec.dense (F := Ideal) x w (ix2 n j) = ∑ k : Fin 64, x (ix2 n k) * w (ix2 k j) := by
  unfold Cert.Spec.dense
  exact Cert.LibPlainDot.dotGeneral_apply _ rfl rfl rfl rfl rfl rfl none .single x w n j

/-- One entry of a block's product is the entry of the whole product that sits under it. Let x0 be block T of the rows
    of X (row a of x0 is row 10000 T + a of X) and let x1 be W. Then a 10000 × 64 table p whose entry (a, b) is the sum
    over k of x0 (a, k) · x1 (k, b) agrees at y with X · W at the index i that has y's column and the row 10000 T + y's
    row: both are the sum over k of X (10000 T + a, k) · W (k, b). -/
theorem block_entry (p : S10000x64.Idx → EReal) (x0 : S10000x64.Idx → EReal) (x1 : S64x64.Idx → EReal)
    (hp : ∀ (a : Fin 10000) (b : Fin 64), p (ix2 a b) = ∑ k : Fin 64, x0 (ix2 a k) * x1 (ix2 k b))
    (X : S100000x64.Idx → EReal) (W : S64x64.Idx → EReal) (T : Nat)
    (hx0 : ∀ (y : S10000x64.Idx) (i : S100000x64.Idx), (i 0).val = T * 10000 + (y 0).val → (i 1).val = (y 1).val → x0 y = X i)
    (hx1 : ∀ y : S64x64.Idx, x1 y = W y)
    (y : S10000x64.Idx) (i : S100000x64.Idx) (hi0 : (i 0).val = T * 10000 + (y 0).val) (hi1 : (i 1).val = (y 1).val) :
    p y = Cert.Spec.dense (F := Ideal) X W i := by
  obtain ⟨a, b, rfl⟩ : ∃ (a : Fin 10000) (b : Fin 64), y = ix2 a b := ⟨y 0, y 1, eq_ix2 y⟩
  obtain ⟨n, j, rfl⟩ : ∃ (n : Fin 100000) (j : Fin 64), i = ix2 n j := ⟨i 0, i 1, eq_ix2 i⟩
  obtain rfl : j = b := Fin.ext hi1
  rw [hp, dense_apply]
  refine Finset.sum_congr rfl fun k _ => ?_
  rw [hx0 (ix2 a k) (ix2 n k) hi0 rfl, hx1]

/-! ## The first projection call -/

/-- The block indices over the ten points, decided once: at point t the left operand's block and the result's block are
    block t of the rows (and the only block of the columns); the right operand's block is its only one. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is block t of x · W of the operand arrays as the call found them: the block's entry
    (a, b) is the sum over k of x (10000 t + a, k) · W (k, b). -/
theorem flushed0 (c : Dev nD) (t : Fin cfg0.N) :
    (dat0 V c).flushed 2 t
      = ((cfg0.win 2).blk t).view.read (Elt Ideal) (Cert.Spec.dense (F := Ideal) (V c main_arg0) (V c main_arg3)) := by
  show (cfg0.win 2).cut (grid0.coords t) ((dat0 V c).after 2 t) = _
  rw [after0_2]
  unfold out0_2
  rw [View.canon_unit_zero zero_off]
  simp only [View.ld_unit_zero (S := S10000x64) zero_off, View.ld_unit_zero (S := S64x64) zero_off]
  obtain ⟨e0, e1, e2, e3, e4, e5⟩ := idx_facts0 t
  funext j
  show k0_pay1 (F := Ideal) (iblk0 V c 0 t) (iblk0 V c 1 t) j
    = Cert.Spec.dense (F := Ideal) (V c main_arg0) (V c main_arg3) (((cfg0.win 2).blk t).view.emb j)
  refine block_entry _ (iblk0 V c 0 t) (iblk0 V c 1 t) (pay0_apply _ _) (V c main_arg0) (V c main_arg3) t.val ?_ ?_ j _ ?_ ?_
  · -- the left operand's block at point t is rows 10000 t … 10000 t + 9999 of the left operand
    intro y i h0 h1
    show V c main_arg0 (((cfg0.win 0).blk t).view.emb y) = V c main_arg0 i
    congr 1
    funext a; apply Fin.ext
    match a with
    | ⟨0, _⟩ => show win0_0.index t (0 : Fin 2) * 10000 + 1 * (y 0).val = (i 0).val; omega
    | ⟨1, _⟩ => show win0_0.index t (1 : Fin 2) * 64 + 1 * (y 1).val = (i 1).val; omega
  · -- the right operand's block is the whole right operand
    intro y
    show V c main_arg3 (((cfg0.win 1).blk t).view.emb y) = V c main_arg3 y
    congr 1
    funext a; apply Fin.ext
    match a with
    | ⟨0, _⟩ => show win0_1.index t (0 : Fin 2) * 64 + 1 * (y 0).val = (y 0).val; omega
    | ⟨1, _⟩ => show win0_1.index t (1 : Fin 2) * 64 + 1 * (y 1).val = (y 1).val; omega
  · show win0_2.index t (0 : Fin 2) * 10000 + 1 * (j 0).val = t.val * 10000 + (j 0).val; omega
  · show win0_2.index t (1 : Fin 2) * 64 + 1 * (j 1).val = (j 1).val; omega

/-- An index of the result array is in point t's block iff each coordinate is in the block's range on its axis. -/
theorem mem_blk0 (t : Fin cfg0.N) (i : S100000x64.Idx) :
    i ∈ ((cfg0.win 2).blk t).view.set
      ↔ ∀ a : Fin 2, win0_2.index t a * S10000x64.size a ≤ (i a).val
          ∧ (i a).val < win0_2.index t a * S10000x64.size a + S10000x64.size a := by
  show i ∈ ((View.whole main_v27).slice (win0_2.rect t)).set ↔ _
  rw [View.set_slice_whole, Rect.mem_set_unit]
  exact Iff.rfl

/-- The ten blocks tile the 100000 rows: row r lies in the block of point r / 10000, and every point writes back. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 10000 :=
    ⟨⟨(i 0).val / 10000, by show (i 0).val / 10000 < grid0.N; rw [N_0]; omega⟩, rfl⟩
  obtain ⟨e0, e1, e2, e3, e4, e5⟩ := idx_facts0 t
  refine ⟨t, flush0_2 t, ?_⟩
  rw [mem_blk0]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 64 ≤ (i 1).val ∧ (i 1).val < win0_2.index t (1 : Fin 2) * 64 + 64
    omega

/-- After the first projection call its result array is x · W of the two operand arrays as the call found them. -/
theorem dense0 (c : Dev nD) :
    (dat0 V c).arrAt 2 cfg0.N = Cert.Spec.dense (F := Ideal) (V c main_arg0) (V c main_arg3) :=
  (dat0 V c).arrAt_eq_of_cover 2 (Cert.Spec.dense (F := Ideal) (V c main_arg0) (V c main_arg3))
    (fun t _ => flushed0 V c t) cover0

/-! ## The second projection call

The same kernel function over the same grid: its left operand is the first layer's output, its right operand the second
weight matrix. -/

/-- The block indices over the ten points, decided once: at point t the left operand's block and the result's block are
    block t of the rows (and the only block of the columns); the right operand's block is its only one. -/
theorem idx_facts2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point t writes back is block t of x · W of the operand arrays as the call found them: the block's entry
    (a, b) is the sum over k of x (10000 t + a, k) · W (k, b). -/
theorem flushed2 (c : Dev nD) (t : Fin cfg2.N) :
    (dat2 V c).flushed 2 t
      = ((cfg2.win 2).blk t).view.read (Elt Ideal) (Cert.Spec.dense (F := Ideal) (V c main_v43) (V c main_arg5)) := by
  show (cfg2.win 2).cut (grid2.coords t) ((dat2 V c).after 2 t) = _
  rw [after2_2]
  unfold out2_2
  rw [View.canon_unit_zero zero_off]
  simp only [View.ld_unit_zero (S := S10000x64) zero_off, View.ld_unit_zero (S := S64x64) zero_off]
  obtain ⟨e0, e1, e2, e3, e4, e5⟩ := idx_facts2 t
  funext j
  show k2_pay1 (F := Ideal) (iblk2 V c 0 t) (iblk2 V c 1 t) j
    = Cert.Spec.dense (F := Ideal) (V c main_v43) (V c main_arg5) (((cfg2.win 2).blk t).view.emb j)
  refine block_entry _ (iblk2 V c 0 t) (iblk2 V c 1 t) (pay2_apply _ _) (V c main_v43) (V c main_arg5) t.val ?_ ?_ j _ ?_ ?_
  · -- the left operand's block at point t is rows 10000 t … 10000 t + 9999 of the left operand
    intro y i h0 h1
    show V c main_v43 (((cfg2.win 0).blk t).view.emb y) = V c main_v43 i
    congr 1
    funext a; apply Fin.ext
    match a with
    | ⟨0, _⟩ => show win2_0.index t (0 : Fin 2) * 10000 + 1 * (y 0).val = (i 0).val; omega
    | ⟨1, _⟩ => show win2_0.index t (1 : Fin 2) * 64 + 1 * (y 1).val = (i 1).val; omega
  · -- the right operand's block is the whole right operand
    intro y
    show V c main_arg5 (((cfg2.win 1).blk t).view.emb y) = V c main_arg5 y
    congr 1
    funext a; apply Fin.ext
    match a with
    | ⟨0, _⟩ => show win2_1.index t (0 : Fin 2) * 64 + 1 * (y 0).val = (y 0).val; omega
    | ⟨1, _⟩ => show win2_1.index t (1 : Fin 2) * 64 + 1 * (y 1).val = (y 1).val; omega
  · show win2_2.index t (0 : Fin 2) * 10000 + 1 * (j 0).val = t.val * 10000 + (j 0).val; omega
  · show win2_2.index t (1 : Fin 2) * 64 + 1 * (j 1).val = (j 1).val; omega

/-- An index of the result array is in point t's block iff each coordinate is in the block's range on its axis. -/
theorem mem_blk2 (t : Fin cfg2.N) (i : S100000x64.Idx) :
    i ∈ ((cfg2.win 2).blk t).view.set
      ↔ ∀ a : Fin 2, win2_2.index t a * S10000x64.size a ≤ (i a).val
          ∧ (i a).val < win2_2.index t a * S10000x64.size a + S10000x64.size a := by
  show i ∈ ((View.whole main_v47).slice (win2_2.rect t)).set ↔ _
  rw [View.set_slice_whole, Rect.mem_set_unit]
  exact Iff.rfl

/-- The ten blocks tile the 100000 rows: row r lies in the block of point r / 10000, and every point writes back. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ : ∃ t : Fin cfg2.N, t.val = (i 0).val / 10000 :=
    ⟨⟨(i 0).val / 10000, by show (i 0).val / 10000 < grid2.N; rw [N_2]; omega⟩, rfl⟩
  obtain ⟨e0, e1, e2, e3, e4, e5⟩ := idx_facts2 t
  refine ⟨t, flush2_2 t, ?_⟩
  rw [mem_blk2]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 64 ≤ (i 1).val ∧ (i 1).val < win2_2.index t (1 : Fin 2) * 64 + 64
    omega

/-- The same for the second projection call. -/
theorem dense2 (c : Dev nD) :
    (dat2 V c).arrAt 2 cfg2.N = Cert.Spec.dense (F := Ideal) (V c main_v43) (V c main_arg5) :=
  (dat2 V c).arrAt_eq_of_cover 2 (Cert.Spec.dense (F := Ideal) (V c main_v43) (V c main_arg5))
    (fun t _ => flushed2 V c t) cover2

end Cert.KernelIdeal.RegionDense

end
-- ==== Proof.LibColumnForms.lean ====
/-
  A column read at an index: the two layout steps of a row-wise reduction kept as a column.

  A reduction along the last axis of an [a, b] array gives a vector of length a. Kept "as a
  column" it is first cast to the shape [a, 1] and then either broadcast along the second axis to
  [a, c] — every entry of row i is the i-th reduced value — or transposed to the row [1, a] and
  broadcast along the first axis. The cast to a leading unit axis, the transpose of a matrix and the
  broadcast of one row are in the library; here are the cast to a TRAILING
  unit axis and the broadcast of one COLUMN, stated the same way over literal extents.
-/
import Idealize.ShloMosaic.Lib.ValueIdx
import Idealize.ShloMosaic.Lib.ValueLayout
import Idealize.ShloMosaic.Lib.Pipeline.Value

noncomputable section

namespace Idealize.ShloMosaic.ColumnForms

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, c]` reads, at `(i, j)`, the operand's one column at `i`. -/
theorem broadcastTo_a1_ac_apply {a c : ℕ} (v : (⟨2, ![a, 1]⟩ : Shape).Idx → α) (h : (⟨2, ![a, 1]⟩ : Shape).Broadcasts ⟨2, ![a, c]⟩)
    (i : Fin a) (j : Fin c) : broadcastTo ⟨2, ![a, c]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ColumnForms

end
-- ==== Proof.RegionCombine.lean ====
/-
  The combination regions, read as whole arrays.

  Each of the two combination calls walks ten blocks of 10000 rows; at block t the body reads rows
  10000 t … 10000 t + 9999 of the projected table h, of the aggregated table agg and of the one-column table s, and the
  whole one-row table b, and writes max ((agg + h · s) + b, 0) back to the same rows of the result, s spread along each
  row and b down each column. The ten blocks tile the 100000 rows, so after the call the result array is that
  function of the four operand arrays as the call found them.
-/
import proofs.«157126_j137438953659_1_alg».proof.Proof.Gen.KernelIdeal.Frame
import proofs.«157126_j137438953659_1_alg».proof.Proof.Spec
import proofs.«157126_j137438953659_1_alg».proof.Proof.LibColumnForms
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem
open Idealize.ShloMosaic.Pipeline (Dat)

namespace Cert.KernelIdeal.RegionCombine

open Cert.KernelIdeal Cert.KernelIdeal.Gen

open Idealize.ShloMosaic.ValueIdx

variable (V : (c : Dev nD) → (b : Ref sig .tc) → Buf (Elt Ideal) ((c : Thread nD τ).loc b))

/-! ## The two sides at an index -/

/-- One row broadcast down the columns of a block reads, at (a, j), the row's entry j. -/
theorem bcast_row_apply (x_b : Vec Ideal S1x64 .f32) (a : Fin 10000) (j : Fin 64) :
    broadcastTo S10000x64 x_b broadcasts_S1x64_S10000x64 (ix2 a j) = x_b (ix2 (0 : Fin 1) j) := by
  refine broadcastTo_apply x_b broadcasts_S1x64_S10000x64 (ix2 a j) (ix2 (0 : Fin 1) j) fun ax => ?_
  match ax with
  | ⟨0, _⟩ => rfl
  | ⟨1, _⟩ => rfl

/-- The body's stored value at (a, j), from its four loaded blocks: max ((agg (a, j) + h (a, j) · s (a, 0)) + b (0, j), 0). -/
theorem pay1_apply (x_agg x_h : Vec Ideal S10000x64 .f32) (x_s : Vec Ideal S10000x1 .f32) (x_b : Vec Ideal S1x64 .f32)
    (a : Fin 10000) (j : Fin 64) :
    k1_pay1 x_agg x_h x_s x_b (ix2 a j)
      = FloatOps.maximumf (FloatOps.addf (FloatOps.addf (x_agg (ix2 a j)) (FloatOps.mulf (x_h (ix2 a j)) (x_s (ix2 a (0 : Fin 1)))))
          (x_b (ix2 (0 : Fin 1) j))) (FloatOps.ofBits .f32 0x00000000#32) := by
  unfold k1_pay1
  simp only [shapeCast_self]
  rw [← ColumnForms.broadcastTo_a1_ac_apply x_s broadcasts_S10000x1_S10000x64 a j, ← bcast_row_apply x_b a j]
  rfl

/-- The body's stored value at (a, j), from its four loaded blocks: max ((agg (a, j) + h (a, j) · s (a, 0)) + b (0, j), 0). -/
theorem pay3_apply (x_agg x_h : Vec Ideal S10000x64 .f32) (x_s : Vec Ideal S10000x1 .f32) (x_b : Vec Ideal S1x64 .f32)
    (a : Fin 10000) (j : Fin 64) :
    k3_pay1 x_agg x_h x_s x_b (ix2 a j)
      = FloatOps.maximumf (FloatOps.addf (FloatOps.addf (x_agg (ix2 a j)) (FloatOps.mulf (x_h (ix2 a j)) (x_s (ix2 a (0 : Fin 1)))))
          (x_b (ix2 (0 : Fin 1) j))) (FloatOps.ofBits .f32 0x00000000#32) := by
  unfold k3_pay1
  simp only [shapeCast_self]
  rw [← ColumnForms.broadcastTo_a1_ac_apply x_s broadcasts_S10000x1_S10000x64 a j, ← bcast_row_apply x_b a j]
  rfl

/-- The one-column table spread along each row reads, at (n, j), the column's entry n. -/
theorem spread_col_apply (s : (⟨S100000x1, .f32⟩ : BufTy).Contents (Elt Ideal)) (n : Fin 100000) (j : Fin 64) :
    broadcastInDim Cert.ReferenceIdeal.S100000x64 ![0, 1] Cert.ReferenceIdeal.Gen.bcast_S100000x1_S100000x64_0_1 s (ix2 n j)
      = s (ix2 n (0 : Fin 1)) := by
  refine broadcastInDim_apply _ _ s (ix2 n j) (ix2 n (0 : Fin 1)) fun a => ?_
  match a with
  | ⟨0, _⟩ => show n.val = if (100000 : Nat) = 1 then 0 else n.val; rw [if_neg (by decide)]
  | ⟨1, _⟩ => show 0 = if (1 : Nat) = 1 then 0 else j.val; rw [if_pos rfl]

/-- The one-row table spread down each column reads, at (n, j), the row's entry j. -/
theorem spread_row_apply (b : (⟨S1x64, .f32⟩ : BufTy).Contents (Elt Ideal)) (n : Fin 100000) (j : Fin 64) :
    broadcastInDim Cert.ReferenceIdeal.S100000x64 ![0, 1] Cert.ReferenceIdeal.Gen.bcast_S1x64_S100000x64_0_1 b (ix2 n j)
      = b (ix2 (0 : Fin 1) j) := by
  refine broadcastInDim_apply _ _ b (ix2 n j) (ix2 (0 : Fin 1) j) fun a => ?_
  match a with
  | ⟨0, _⟩ => show 0 = if (1 : Nat) = 1 then 0 else n.val; rw [if_pos rfl]
  | ⟨1, _⟩ => show j.val = if (64 : Nat) = 1 then 0 else j.val; rw [if_neg (by decide)]

/-- The zero constant spread over the whole table reads zero everywhere. -/
theorem spread_zero_apply (n : Fin 100000) (j : Fin 64) :
    broadcastInDim Cert.ReferenceIdeal.S100000x64 ![] Cert.ReferenceIdeal.Gen.bcast_S_S100000x64
        (constant (F := Ideal) Cert.ReferenceIdeal.S_ .f32 0x00000000#32) (ix2 n j)
      = FloatOps.ofBits .f32 0x00000000#32 :=
  broadcastInDim_apply _ _ (constant (F := Ideal) Cert.ReferenceIdeal.S_ .f32 0x00000000#32) (ix2 n j) (fun a => a.elim0)
    (fun a => a.elim0)

/-- The whole-array combination read at (n, j): max ((agg (n, j) + h (n, j) · s (n, 0)) + b (0, j), 0). -/
theorem combine_apply (agg h : (⟨S100000x64, .f32⟩ : BufTy).Contents (Elt Ideal)) (s : (⟨S100000x1, .f32⟩ : BufTy).Contents (Elt Ideal))
    (b : (⟨S1x64, .f32⟩ : BufTy).Contents (Elt Ideal)) (n : Fin 100000) (j : Fin 64) :
    Cert.Spec.combine (F := Ideal) agg h s b (ix2 n j)
      = (FloatOps.maximumf (FloatOps.addf (FloatOps.addf (agg (ix2 n j)) (FloatOps.mulf (h (ix2 n j)) (s (ix2 n (0 : Fin 1)))))
          (b (ix2 (0 : Fin 1) j))) (FloatOps.ofBits .f32 0x00000000#32) : Ideal .f32) := by
  unfold Cert.Spec.combine
  rw [← spread_col_apply s n j, ← spread_row_apply b n j, ← spread_zero_apply n j]
  rfl

/-- The zero offsets of a whole-block access, as a function. -/
theorem zero_offsets : (![0, 0] : Fin 2 → Nat) = fun _ => 0 := funext fun a => by fin_cases a <;> rfl

/-! ## The first combination call -/

/-- The five index maps of the first combination call over its ten points: the tables h, agg, s and the result move
    with the point along the rows and stay at column block 0; the one-row table b stays at block (0, 0). -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t of the first combination call writes back is block t of the combination of the four operand arrays. -/
theorem flushed1_eq (c : Dev nD) (t : Fin cfg1.N) :
    (dat1 V c).flushed 4 t = ((cfg1.win 4).blk t).view.read (Elt Ideal)
      (Cert.Spec.combine (F := Ideal) (V c main_v40) (V c main_v27) (V c main_v41) (V c main_v42)) := by
  show (cfg1.win 4).cut (grid1.coords t) ((dat1 V c).after 4 t) = _
  rw [after1_4]
  unfold out1_4
  rw [View.canon_unit_zero zero_offsets]
  simp only [View.ld_unit_zero (S := S10000x64) zero_offsets, View.ld_unit_zero (S := S10000x1) zero_offsets,
    View.ld_unit_zero (S := S1x64) zero_offsets]
  funext y
  obtain ⟨a, j, rfl⟩ : ∃ (a : Fin 10000) (j : Fin 64), y = ix2 a j := ⟨y 0, y 1, eq_ix2 y⟩
  obtain ⟨h00, h01, h10, h11, h20, h21, h30, h31, h40, h41⟩ := block_index1 t
  have ht : t.val < 10 := lt_of_lt_of_eq t.isLt N_1
  have hrow : t.val * 10000 + a.val < 100000 := by have := a.isLt; omega
  refine (pay1_apply (iblk1 V c 1 t) (iblk1 V c 0 t) (iblk1 V c 2 t) (iblk1 V c 3 t) a j).trans ?_
  -- row a of block t is row 10000 t + a of the array
  have hemb : (((cfg1.win 4).blk t).view.emb (ix2 a j) : S100000x64.Idx) = ix2 (⟨t.val * 10000 + a.val, hrow⟩ : Fin 100000) j := by
    funext ax; apply Fin.ext
    match ax with
    | ⟨0, _⟩ => show win1_4.index t (0 : Fin 2) * 10000 + 1 * a.val = t.val * 10000 + a.val; omega
    | ⟨1, _⟩ => show win1_4.index t (1 : Fin 2) * 64 + 1 * j.val = j.val; omega
  refine Eq.trans ?_ (congrArg (Cert.Spec.combine (F := Ideal) (V c main_v40) (V c main_v27) (V c main_v41) (V c main_v42)) hemb).symm
  refine Eq.trans ?_ (combine_apply (V c main_v40) (V c main_v27) (V c main_v41) (V c main_v42) ⟨t.val * 10000 + a.val, hrow⟩ j).symm
  -- each operand's block at point t, read at the same place
  have eagg : (iblk1 V c 1 t (ix2 a j) : Ideal .f32) = V c main_v40 (ix2 (⟨t.val * 10000 + a.val, hrow⟩ : Fin 100000) j) := by
    show V c main_v40 (((cfg1.win 1).blk t).view.emb (ix2 a j)) = _
    refine congrArg (V c main_v40) ?_
    funext ax; apply Fin.ext
    match ax with
    | ⟨0, _⟩ => show win1_1.index t (0 : Fin 2) * 10000 + 1 * a.val = t.val * 10000 + a.val; omega
    | ⟨1, _⟩ => show win1_1.index t (1 : Fin 2) * 64 + 1 * j.val = j.val; omega
  have eh : (iblk1 V c 0 t (ix2 a j) : Ideal .f32) = V c main_v27 (ix2 (⟨t.val * 10000 + a.val, hrow⟩ : Fin 100000) j) := by
    show V c main_v27 (((cfg1.win 0).blk t).view.emb (ix2 a j)) = _
    refine congrArg (V c main_v27) ?_
    funext ax; apply Fin.ext
    match ax with
    | ⟨0, _⟩ => show win1_0.index t (0 : Fin 2) * 10000 + 1 * a.val = t.val * 10000 + a.val; omega
    | ⟨1, _⟩ => show win1_0.index t (1 : Fin 2) * 64 + 1 * j.val = j.val; omega
  have es : (iblk1 V c 2 t (ix2 a (0 : Fin 1)) : Ideal .f32) = V c main_v41 (ix2 (⟨t.val * 10000 + a.val, hrow⟩ : Fin 100000) (0 : Fin 1)) := by
    show V c main_v41 (((cfg1.win 2).blk t).view.emb (ix2 a (0 : Fin 1))) = _
    refine congrArg (V c main_v41) ?_
    funext ax; apply Fin.ext
    match ax with
    | ⟨0, _⟩ => show win1_2.index t (0 : Fin 2) * 10000 + 1 * a.val = t.val * 10000 + a.val; omega
    | ⟨1, _⟩ => show win1_2.index t (1 : Fin 2) * 1 + 1 * 0 = 0; omega
  have eb : (iblk1 V c 3 t (ix2 (0 : Fin 1) j) : Ideal .f32) = V c main_v42 (ix2 (0 : Fin 1) j) := by
    show V c main_v42 (((cfg1.win 3).blk t).view.emb (ix2 (0 : Fin 1) j)) = _
    refine congrArg (V c main_v42) ?_
    funext ax; apply Fin.ext
    match ax with
    | ⟨0, _⟩ => show win1_3.index t (0 : Fin 2) * 1 + 1 * 0 = 0; omega
    | ⟨1, _⟩ => show win1_3.index t (1 : Fin 2) * 64 + 1 * j.val = j.val; omega
  rw [eagg, eh, es, eb]

/-- An index of the result array is in point t's block iff each coordinate is in the block's range on its axis. -/
theorem mem_block1 (t : Fin cfg1.N) (i : S100000x64.Idx) :
    i ∈ ((cfg1.win 4).blk t).view.set ↔ ∀ a : Fin 2, win1_4.index t a * S10000x64.size a ≤ (i a).val
      ∧ (i a).val < win1_4.index t a * S10000x64.size a + S10000x64.size a := by
  show i ∈ ((View.whole main_v43).slice (win1_4.rect t)).set ↔ _
  rw [View.set_slice_whole, Rect.mem_set_unit]
  exact Iff.rfl

/-- The ten blocks tile the 100000 rows: row r lies in the block of point r / 10000, and every point writes back. -/
theorem cover1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hq : (i 0).val / 10000 < 10 := by omega
  obtain ⟨t, ht⟩ : ∃ t : Fin cfg1.N, t.val = (i 0).val / 10000 := ⟨⟨(i 0).val / 10000, lt_of_lt_of_eq hq N_1.symm⟩, rfl⟩
  obtain ⟨-, -, -, -, -, -, -, -, h40, h41⟩ := block_index1 t
  refine ⟨t, flush1_4 t, ?_⟩
  rw [mem_block1]
  intro a
  match a with
  | ⟨0, _⟩ =>
    show win1_4.index t (0 : Fin 2) * 10000 ≤ (i 0).val ∧ (i 0).val < win1_4.index t (0 : Fin 2) * 10000 + 10000
    omega
  | ⟨1, _⟩ =>
    show win1_4.index t (1 : Fin 2) * 64 ≤ (i 1).val ∧ (i 1).val < win1_4.index t (1 : Fin 2) * 64 + 64
    omega

/-- After the first combination call its result array is `combine` of the four operand arrays as the call found them. -/
theorem combine1 (c : Dev nD) :
    (dat1 V c).arrAt 4 cfg1.N
      = Cert.Spec.combine (F := Ideal) (V c main_v40) (V c main_v27) (V c main_v41) (V c main_v42) :=
  (dat1 V c).arrAt_eq_of_cover 4 _ (fun t _ => flushed1_eq V c t) cover1

/-! ## The second combination call -/

/-- The five index maps of the second combination call over its ten points: the tables h, agg, s and the result move
    with the point along the rows and stay at column block 0; the one-row table b stays at block (0, 0). -/
theorem block_index3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point t of the second combination call writes back is block t of the combination of the four operand arrays. -/
theorem flushed3_eq (c : Dev nD) (t : Fin cfg3.N) :
    (dat3 V c).flushed 4 t = ((cfg3.win 4).blk t).view.read (Elt Ideal)
      (Cert.Spec.combine (F := Ideal) (V c main_v60) (V c main_v47) (V c main_v61) (V c main_v62)) := by
  show (cfg3.win 4).cut (grid3.coords t) ((dat3 V c).after 4 t) = _
  rw [after3_4]
  unfold out3_4
  rw [View.canon_unit_zero zero_offsets]
  simp only [View.ld_unit_zero (S := S10000x64) zero_offsets, View.ld_unit_zero (S := S10000x1) zero_offsets,
    View.ld_unit_zero (S := S1x64) zero_offsets]
  funext y
  obtain ⟨a, j, rfl⟩ : ∃ (a : Fin 10000) (j : Fin 64), y = ix2 a j := ⟨y 0, y 1, eq_ix2 y⟩
  obtain ⟨h00, h01, h10, h11, h20, h21, h30, h31, h40, h41⟩ := block_index3 t
  have ht : t.val < 10 := lt_of_lt_of_eq t.isLt N_3
  have hrow : t.val * 10000 + a.val < 100000 := by have := a.isLt; omega
  refine (pay3_apply (iblk3 V c 1 t) (iblk3 V c 0 t) (iblk3 V c 2 t) (iblk3 V c 3 t) a j).trans ?_
  -- row a of block t is row 10000 t + a of the array
  have hemb : (((cfg3.win 4).blk t).view.emb (ix2 a j) : S100000x64.Idx) = ix2 (⟨t.val * 10000 + a.val, hrow⟩ : Fin 100000) j := by
    funext ax; apply Fin.ext
    match ax with
    | ⟨0, _⟩ => show win3_4.index t (0 : Fin 2) * 10000 + 1 * a.val = t.val * 10000 + a.val; omega
    | ⟨1, _⟩ => show win3_4.index t (1 : Fin 2) * 64 + 1 * j.val = j.val; omega
  refine Eq.trans ?_ (congrArg (Cert.Spec.combine (F := Ideal) (V c main_v60) (V c main_v47) (V c main_v61) (V c main_v62)) hemb).symm
  refine Eq.trans ?_ (combine_apply (V c main_v60) (V c main_v47) (V c main_v61) (V c main_v62) ⟨t.val * 10000 + a.val, hrow⟩ j).symm
  -- each operand's block at point t, read at the same place
  have eagg : (iblk3 V c 1 t (ix2 a j) : Ideal .f32) = V c main_v60 (ix2 (⟨t.val * 10000 + a.val, hrow⟩ : Fin 100000) j) := by
    show V c main_v60 (((cfg3.win 1).blk t).view.emb (ix2 a j)) = _
    refine congrArg (V c main_v60) ?_
    funext ax; apply Fin.ext
    match ax with
    | ⟨0, _⟩ => show win3_1.index t (0 : Fin 2) * 10000 + 1 * a.val = t.val * 10000 + a.val; omega
    | ⟨1, _⟩ => show win3_1.index t (1 : Fin 2) * 64 + 1 * j.val = j.val; omega
  have eh : (iblk3 V c 0 t (ix2 a j) : Ideal .f32) = V c main_v47 (ix2 (⟨t.val * 10000 + a.val, hrow⟩ : Fin 100000) j) := by
    show V c main_v47 (((cfg3.win 0).blk t).view.emb (ix2 a j)) = _
    refine congrArg (V c main_v47) ?_
    funext ax; apply Fin.ext
    match ax with
    | ⟨0, _⟩ => show win3_0.index t (0 : Fin 2) * 10000 + 1 * a.val = t.val * 10000 + a.val; omega
    | ⟨1, _⟩ => show win3_0.index t (1 : Fin 2) * 64 + 1 * j.val = j.val; omega
  have es : (iblk3 V c 2 t (ix2 a (0 : Fin 1)) : Ideal .f32) = V c main_v61 (ix2 (⟨t.val * 10000 + a.val, hrow⟩ : Fin 100000) (0 : Fin 1)) := by
    show V c main_v61 (((cfg3.win 2).blk t).view.emb (ix2 a (0 : Fin 1))) = _
    refine congrArg (V c main_v61) ?_
    funext ax; apply Fin.ext
    match ax with
    | ⟨0, _⟩ => show win3_2.index t (0 : Fin 2) * 10000 + 1 * a.val = t.val * 10000 + a.val; omega
    | ⟨1, _⟩ => show win3_2.index t (1 : Fin 2) * 1 + 1 * 0 = 0; omega
  have eb : (iblk3 V c 3 t (ix2 (0 : Fin 1) j) : Ideal .f32) = V c main_v62 (ix2 (0 : Fin 1) j) := by
    show V c main_v62 (((cfg3.win 3).blk t).view.emb (ix2 (0 : Fin 1) j)) = _
    refine congrArg (V c main_v62) ?_
    funext ax; apply Fin.ext
    match ax with
    | ⟨0, _⟩ => show win3_3.index t (0 : Fin 2) * 1 + 1 * 0 = 0; omega
    | ⟨1, _⟩ => show win3_3.index t (1 : Fin 2) * 64 + 1 * j.val = j.val; omega
  rw [eagg, eh, es, eb]

/-- An index of the result array is in point t's block iff each coordinate is in the block's range on its axis. -/
theorem mem_block3 (t : Fin cfg3.N) (i : S100000x64.Idx) :
    i ∈ ((cfg3.win 4).blk t).view.set ↔ ∀ a : Fin 2, win3_4.index t a * S10000x64.size a ≤ (i a).val
      ∧ (i a).val < win3_4.index t a * S10000x64.size a + S10000x64.size a := by
  show i ∈ ((View.whole main_v63).slice (win3_4.rect t)).set ↔ _
  rw [View.set_slice_whole, Rect.mem_set_unit]
  exact Iff.rfl

/-- The ten blocks tile the 100000 rows: row r lies in the block of point r / 10000, and every point writes back. -/
theorem cover3 (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  have hq : (i 0).val / 10000 < 10 := by omega
  obtain ⟨t, ht⟩ : ∃ t : Fin cfg3.N, t.val = (i 0).val / 10000 := ⟨⟨(i 0).val / 10000, lt_of_lt_of_eq hq N_3.symm⟩, rfl⟩
  obtain ⟨-, -, -, -, -, -, -, -, h40, h41⟩ := block_index3 t
  refine ⟨t, flush3_4 t, ?_⟩
  rw [mem_block3]
  intro a
  match a with
  | ⟨0, _⟩ =>
    show win3_4.index t (0 : Fin 2) * 10000 ≤ (i 0).val ∧ (i 0).val < win3_4.index t (0 : Fin 2) * 10000 + 10000
    omega
  | ⟨1, _⟩ =>
    show win3_4.index t (1 : Fin 2) * 64 ≤ (i 1).val ∧ (i 1).val < win3_4.index t (1 : Fin 2) * 64 + 64
    omega

/-- The same for the second combination call. -/
theorem combine3 (c : Dev nD) :
    (dat3 V c).arrAt 4 cfg3.N
      = Cert.Spec.combine (F := Ideal) (V c main_v60) (V c main_v47) (V c main_v61) (V c main_v62) :=
  (dat3 V c).arrAt_eq_of_cover 4 _ (fun t _ => flushed3_eq V c t) cover3

end Cert.KernelIdeal.RegionCombine

end
-- ==== Proof.SpecLayer.lean ====
/-
  The graph convolution as whole-array functions of the program's arguments.

  From the edge list e (row 0 the sources, row 1 the targets of the 1200000 edges): the degree of a node is one more
  than the number of edges that point at it, dinv its reciprocal square root, the weight of an edge
  dinv (source) · dinv (target) and the self-loop weight of a node dinv². A source index below zero is read from the
  end of the table (the index plus 100000). For a table h of projected features, `aggOf h e` sums, into each target's
  row, the source's row of h times the edge's weight. A layer is `combine` of that sum, of h itself, of the self-loop
  weights as a column and of the bias as a row; the network is two layers; `pool` sums the rows of a table into the 64
  graphs the vector `batch` assigns them to, and the second result lays the two pooled tables side by side.
-/
import proofs.«157126_j137438953659_1_alg».proof.Proof.Spec

noncomputable section

namespace Cert.Spec

open Cert.ReferenceIdeal Cert.ReferenceIdeal.Gen Idealize.ShloMosaic

variable {F : FTy → Type} [FloatOps F]

/-- The edges' sources: row 0 of the edge list. -/
def srcOf (e : (⟨S2x1200000, .i32⟩ : BufTy).Contents (Elt F)) : (⟨S1200000, .i32⟩ : BufTy).Contents (Elt F) :=
  shapeCast S1200000 (extractStridedSlice S1x1200000 ![0, 0] e slices_S2x1200000_S1x1200000_0_0) shapeCasts_S1x1200000_S1200000

/-- The edges' targets: row 1 of the edge list. -/
def dstOf (e : (⟨S2x1200000, .i32⟩ : BufTy).Contents (Elt F)) : (⟨S1200000, .i32⟩ : BufTy).Contents (Elt F) :=
  shapeCast S1200000 (extractStridedSlice S1x1200000 ![1, 0] e slices_S2x1200000_S1x1200000_1_0) shapeCasts_S1x1200000_S1200000

/-- An index below zero counts from the end of a table of 100000 rows. -/
def wrap (v : (⟨S1200000, .i32⟩ : BufTy).Contents (Elt F)) : (⟨S1200000, .i32⟩ : BufTy).Contents (Elt F) :=
  select (cmpi .slt v (broadcastInDim S1200000 ![] bcast_S_S1200000 (constantI S_ 32 0#32)))
    (addi v (broadcastInDim S1200000 ![] bcast_S_S1200000 (constantI S_ 32 100000#32))) v

/-- dinv: the reciprocal square root of each node's degree, the number of edges pointing at it plus one. -/
def dinvOf (e : (⟨S2x1200000, .i32⟩ : BufTy).Contents (Elt F)) : (⟨S100000, .f32⟩ : BufTy).Contents (Elt F) :=
  Host.rsqrt (addf
    (Host.scatterAdd scatter_S100000_S1200000x1_S1200000_n_0_0_1
      (broadcastInDim S100000 ![] bcast_S_S100000 (constant S_ .f32 0x00000000#32))
      (broadcastInDim S1200000x1 ![0] bcast_S1200000_S1200000x1_0 (dstOf e))
      (broadcastInDim S1200000 ![] bcast_S_S1200000 (constant S_ .f32 0x3F800000#32)))
    (broadcastInDim S100000 ![] bcast_S_S100000 (constant S_ .f32 0x3F800000#32)))

/-- The weight of each edge: dinv at its source times dinv at its target. -/
def normOf (e : (⟨S2x1200000, .i32⟩ : BufTy).Contents (Elt F)) : (⟨S1200000, .f32⟩ : BufTy).Contents (Elt F) :=
  mulf
    (Host.gather gather_S100000_S1200000x1_S1200000_n_0_n_n_0_1_1 (dinvOf e)
      (broadcastInDim S1200000x1 ![0] bcast_S1200000_S1200000x1_0 (wrap (srcOf e))))
    (Host.gather gather_S100000_S1200000x1_S1200000_n_0_n_n_0_1_1 (dinvOf e)
      (broadcastInDim S1200000x1 ![0] bcast_S1200000_S1200000x1_0 (wrap (dstOf e))))

/-- The self-loop weight of each node: dinv squared. -/
def selfOf (e : (⟨S2x1200000, .i32⟩ : BufTy).Contents (Elt F)) : (⟨S100000, .f32⟩ : BufTy).Contents (Elt F) :=
  mulf (dinvOf e) (dinvOf e)

/-- The edge-weighted sum of neighbours' rows: into each target's row, the source's row of h times the edge's weight. -/
def aggOf (h : (⟨S100000x64, .f32⟩ : BufTy).Contents (Elt F)) (e : (⟨S2x1200000, .i32⟩ : BufTy).Contents (Elt F)) : (⟨S100000x64, .f32⟩ : BufTy).Contents (Elt F) :=
  Host.scatterAdd scatter_S100000x64_S1200000x1_S1200000x64_1_0_0_1
    (broadcastInDim S100000x64 ![] bcast_S_S100000x64 (constant S_ .f32 0x00000000#32))
    (broadcastInDim S1200000x1 ![0] bcast_S1200000_S1200000x1_0 (dstOf e))
    (mulf
      (Host.gather gather_S100000x64_S1200000x1_S1200000x64_1_0_n_n_0_1_164 h
        (broadcastInDim S1200000x1 ![0] bcast_S1200000_S1200000x1_0 (wrap (srcOf e))))
      (broadcastInDim S1200000x64 ![0, 1] bcast_S1200000x1_S1200000x64_0_1
        (broadcastInDim S1200000x1 ![0] bcast_S1200000_S1200000x1_0 (normOf e))))

/-- A vector of one number per node, kept as a one-column table. -/
def colOf (v : (⟨S100000, .f32⟩ : BufTy).Contents (Elt F)) : (⟨S100000x1, .f32⟩ : BufTy).Contents (Elt F) :=
  broadcastInDim S100000x1 ![0] bcast_S100000_S100000x1_0 v

/-- A vector of one number per feature, kept as a one-row table. -/
def rowOf (b : (⟨S64, .f32⟩ : BufTy).Contents (Elt F)) : (⟨S1x64, .f32⟩ : BufTy).Contents (Elt F) :=
  broadcastInDim S1x64 ![1] bcast_S64_S1x64_1 b

/-- One layer: relu((agg + h · dinv²) + b) with h = x · W and agg the weighted neighbour sum of h. -/
def layer (x : (⟨S100000x64, .f32⟩ : BufTy).Contents (Elt F)) (w : (⟨S64x64, .f32⟩ : BufTy).Contents (Elt F)) (b : (⟨S64, .f32⟩ : BufTy).Contents (Elt F))
    (e : (⟨S2x1200000, .i32⟩ : BufTy).Contents (Elt F)) : (⟨S100000x64, .f32⟩ : BufTy).Contents (Elt F) :=
  combine (aggOf (dense x w) e) (dense x w) (colOf (selfOf e)) (rowOf b)

/-- The rows of a node table summed into the graphs `batch` assigns them to. -/
def pool (h : (⟨S100000x64, .f32⟩ : BufTy).Contents (Elt F)) (batch : (⟨S100000, .i32⟩ : BufTy).Contents (Elt F)) : (⟨S64x64, .f32⟩ : BufTy).Contents (Elt F) :=
  Host.scatterAdd scatter_S64x64_S100000x1_S100000x64_1_0_0_1
    (broadcastInDim S64x64 ![] bcast_S_S64x64 (constant S_ .f32 0x00000000#32))
    (broadcastInDim S100000x1 ![0] bcast_S100000_S100000x1_0 batch) h

/-- The first result: the node features after two layers. -/
def out0 (x : (⟨S100000x64, .f32⟩ : BufTy).Contents (Elt F)) (e : (⟨S2x1200000, .i32⟩ : BufTy).Contents (Elt F)) (w1 : (⟨S64x64, .f32⟩ : BufTy).Contents (Elt F)) (b1 : (⟨S64, .f32⟩ : BufTy).Contents (Elt F))
    (w2 : (⟨S64x64, .f32⟩ : BufTy).Contents (Elt F)) (b2 : (⟨S64, .f32⟩ : BufTy).Contents (Elt F)) : (⟨S100000x64, .f32⟩ : BufTy).Contents (Elt F) :=
  layer (layer x w1 b1 e) w2 b2 e

/-- The second result: the pooled features of the first and of the second layer side by side. -/
def out1 (x : (⟨S100000x64, .f32⟩ : BufTy).Contents (Elt F)) (e : (⟨S2x1200000, .i32⟩ : BufTy).Contents (Elt F)) (batch : (⟨S100000, .i32⟩ : BufTy).Contents (Elt F))
    (w1 : (⟨S64x64, .f32⟩ : BufTy).Contents (Elt F)) (b1 : (⟨S64, .f32⟩ : BufTy).Contents (Elt F)) (w2 : (⟨S64x64, .f32⟩ : BufTy).Contents (Elt F)) (b2 : (⟨S64, .f32⟩ : BufTy).Contents (Elt F)) :
    (⟨S64x128, .f32⟩ : BufTy).Contents (Elt F) :=
  concatenate S64x128 1 [⟨S64x64, pool (layer x w1 b1 e) batch⟩, ⟨S64x64, pool (out0 x e w1 b1 w2 b2) batch⟩]
    concatenates_S64x64_S64x64_S64x128_d1

end Cert.Spec

end
-- ==== Proof.LibReshapeAsBroadcast.lean ====
/-
  A vector laid out as a one-row table, or as a one-column table, by a reshape is the same table as the one a broadcast
  along the other axis makes: both hold x k at (0, k), respectively at (k, 0).

  Both sides are read index by index. A reshape keeps the row-major position: entry (0, k) of a table of one row of
  length n sits at position 0 * n + k = k, and entry (k, 0) of a table of n rows of length one at position k * 1 + 0 = k,
  so either reads entry k of the vector. A broadcast along axis b reads the vector at the b-th coordinate of the index
  (at 0 if the vector has a single entry, which is then that same coordinate): k again.
-/
import Idealize.ShloMosaic.Lib.Pipeline.Value
import Idealize.ShloMosaic.Lib.ValueIdx

noncomputable section

namespace Idealize.ShloMosaic.ReshapeAsBroadcast

open Idealize.ShloMosaic Idealize.ShloMosaic.ValueIdx

variable {α : Type}

/-- [n] to [1, n]. -/
theorem shapeCast_row (n : Nat) (x : (⟨1, ![n]⟩ : Shape).Idx → α)
    (h : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ x h = broadcastInDim ⟨2, ![1, n]⟩ ![1] hb x := by
  funext j
  -- the only row is row 0; the column is below n
  have hj0 : (j 0).val = 0 := by
    have h0 : (j 0).val < 1 := (j 0).isLt
    omega
  have hj1 : (j 1).val < n := (j 1).isLt
  -- the entry of the vector both sides read
  let k : (⟨1, ![n]⟩ : Shape).Idx := fun a => ⟨(j 1).val, by
    have ha : a = 0 := Subsingleton.elim _ _
    subst ha
    exact hj1⟩
  have hL : shapeCast ⟨2, ![1, n]⟩ x h j = x k := by
    refine shapeCast_apply x h j k ?_
    rw [Shape.rowMajor_val_one, Shape.rowMajor_val_two]
    show (j 1).val = (j 0).val * n + (j 1).val
    rw [hj0]
    omega
  have hR : broadcastInDim ⟨2, ![1, n]⟩ ![1] hb x j = x k := by
    refine broadcastInDim_apply ![1] hb x j k ?_
    intro a
    have ha : a = 0 := Subsingleton.elim _ _
    subst ha
    show (j 1).val = if n = 1 then 0 else (j 1).val
    by_cases hn : n = 1
    · rw [if_pos hn]; omega
    · rw [if_neg hn]
  rw [hL, hR]

/-- [n] to [n, 1]. -/
theorem shapeCast_col (n : Nat) (x : (⟨1, ![n]⟩ : Shape).Idx → α)
    (h : (⟨1, ![n]⟩ : Shape).ShapeCasts ⟨2, ![n, 1]⟩)
    (hb : (⟨1, ![n]⟩ : Shape).BroadcastsInDim ⟨2, ![n, 1]⟩ (![0] : Fin 1 → Fin 2)) :
    shapeCast ⟨2, ![n, 1]⟩ x h = broadcastInDim ⟨2, ![n, 1]⟩ ![0] hb x := by
  funext j
  -- the only column is column 0; the row is below n
  have hj1 : (j 1).val = 0 := by
    have h1 : (j 1).val < 1 := (j 1).isLt
    omega
  have hj0 : (j 0).val < n := (j 0).isLt
  let k : (⟨1, ![n]⟩ : Shape).Idx := fun a => ⟨(j 0).val, by
    have ha : a = 0 := Subsingleton.elim _ _
    subst ha
    exact hj0⟩
  have hL : shapeCast ⟨2, ![n, 1]⟩ x h j = x k := by
    refine shapeCast_apply x h j k ?_
    rw [Shape.rowMajor_val_one, Shape.rowMajor_val_two]
    show (j 0).val = (j 0).val * 1 + (j 1).val
    rw [hj1]
    omega
  have hR : broadcastInDim ⟨2, ![n, 1]⟩ ![0] hb x j = x k := by
    refine broadcastInDim_apply ![0] hb x j k ?_
    intro a
    have ha : a = 0 := Subsingleton.elim _ _
    subst ha
    show (j 0).val = if n = 1 then 0 else (j 0).val
    by_cases hn : n = 1
    · rw [if_pos hn]; omega
    · rw [if_neg hn]
  rw [hL, hR]

end Idealize.ShloMosaic.ReshapeAsBroadcast

end
-- ==== Proof.KernelThread.lean ====
/-
  The kernel program's two results as functions of its arguments.

  @main is a fold through nine segments: a stretch of host operations, a projection call, a stretch, a combination call,
  a stretch, the second projection, a stretch, the second combination, a last stretch. The buffer contents at each
  boundary are those of the boundary before with the segment's writes applied. Each lemma here reads one buffer at one
  boundary: a buffer the segment writes is the segment's operation of the contents read one boundary back (a call's
  result array by the region lemmas, a stretch's result by composing its operations), a buffer it does not write is
  what it was. Read this way the first result is two layers applied to x, and the second the two layers' pooled
  features side by side: the specification's `out0` and `out1`. The one change of form on the way: the kernel program
  lays the self-loop weights out as a column and the bias as a row by a reshape, where the specification broadcasts
  along the other axis; the two tables are the same.
-/
import proofs.«157126_j137438953659_1_alg».proof.Proof.Gen.KernelIdeal.Frame
import proofs.«157126_j137438953659_1_alg».proof.Proof.RegionDense
import proofs.«157126_j137438953659_1_alg».proof.Proof.RegionCombine
import proofs.«157126_j137438953659_1_alg».proof.Proof.SpecLayer
import proofs.«157126_j137438953659_1_alg».proof.Proof.LibReshapeAsBroadcast
import Idealize.ShloMosaic.Lib.StableHlo.Run

set_option maxRecDepth 16384

noncomputable section

open Idealize.ShloMosaic Idealize.ShloMosaic.TcCoe Idealize.SL.Sem

namespace Cert.KernelIdeal.Thread

open Cert.KernelIdeal Cert.KernelIdeal.Gen

variable (m : (ℓ : Loc nD τ sig) → Buf (Elt Ideal) ℓ) (ρ : Dev nD → PrngReg) (c : Dev nD)

/-- No operation of the stretch writes the buffer: one inequality of buffer names per operation. -/
local macro "unwritten" ops:ident : tactic => `(tactic| (
  refine List.forall_iff_forall_mem.mp ?_
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## The arguments as launched, typed as the tables the specification takes -/

abbrev X : (⟨Cert.ReferenceIdeal.S100000x64, .f32⟩ : BufTy).Contents (Elt Ideal) := m ((c.tc : Thread nD τ).loc main_arg0)
abbrev E : (⟨Cert.ReferenceIdeal.S2x1200000, .i32⟩ : BufTy).Contents (Elt Ideal) := m ((c.tc : Thread nD τ).loc main_arg1)
abbrev Bt : (⟨Cert.ReferenceIdeal.S100000, .i32⟩ : BufTy).Contents (Elt Ideal) := m ((c.tc : Thread nD τ).loc main_arg2)
abbrev Wa : (⟨Cert.ReferenceIdeal.S64x64, .f32⟩ : BufTy).Contents (Elt Ideal) := m ((c.tc : Thread nD τ).loc main_arg3)
abbrev Ba : (⟨Cert.ReferenceIdeal.S64, .f32⟩ : BufTy).Contents (Elt Ideal) := m ((c.tc : Thread nD τ).loc main_arg4)
abbrev Wb : (⟨Cert.ReferenceIdeal.S64x64, .f32⟩ : BufTy).Contents (Elt Ideal) := m ((c.tc : Thread nD τ).loc main_arg5)
abbrev Bb : (⟨Cert.ReferenceIdeal.S64, .f32⟩ : BufTy).Contents (Elt Ideal) := m ((c.tc : Thread nD τ).loc main_arg6)

/-! ## Before the first projection: the edge list's derived vectors -/

theorem src1 : W1 m ρ c (Proc.devRef .tc main_v1) = Cert.Spec.srcOf (F := Ideal) (E m c) := by
  show StableHlo.after hostOps0 (W0 m ρ c) (Proc.devRef .tc main_v1) = _
  after_results
  rfl

theorem dst1 : W1 m ρ c (Proc.devRef .tc main_v3) = Cert.Spec.dstOf (F := Ideal) (E m c) := by
  show StableHlo.after hostOps0 (W0 m ρ c) (Proc.devRef .tc main_v3) = _
  after_results
  rfl

theorem self1 : W1 m ρ c (Proc.devRef .tc main_v11) = Cert.Spec.selfOf (F := Ideal) (E m c) := by
  show StableHlo.after hostOps0 (W0 m ρ c) (Proc.devRef .tc main_v11) = _
  after_results
  rfl

set_option maxHeartbeats 4000000 in
theorem norm1 : W1 m ρ c (Proc.devRef .tc main_v26) = Cert.Spec.normOf (F := Ideal) (E m c) := by
  show StableHlo.after hostOps0 (W0 m ρ c) (Proc.devRef .tc main_v26) = _
  after_results
  rfl

theorem x1 : W1 m ρ c (Proc.devRef .tc main_arg0) = X m c :=
  StableHlo.after_of_forall_not_mem (b := Proc.devRef .tc main_arg0) _ _ (by unwritten hostOps0)

theorem wa1 : W1 m ρ c (Proc.devRef .tc main_arg3) = Wa m c :=
  StableHlo.after_of_forall_not_mem (b := Proc.devRef .tc main_arg3) _ _ (by unwritten hostOps0)

/-! ## The first projection -/

theorem h2 : W2 m ρ c (Proc.devRef .tc main_v27) = Cert.Spec.dense (F := Ideal) (X m c) (Wa m c) := by
  refine (W2_arr m ρ c 2).trans ((Cert.KernelIdeal.RegionDense.dense0 (V1 m ρ) c).trans ?_)
  show Cert.Spec.dense (F := Ideal) (W1 m ρ c (Proc.devRef .tc main_arg0)) (W1 m ρ c (Proc.devRef .tc main_arg3)) = _
  rw [x1, wa1]

/-! ## What the first projection leaves untouched -/

theorem src2 : W2 m ρ c (Proc.devRef .tc main_v1) = Cert.Spec.srcOf (F := Ideal) (E m c) :=
  (W2_of_ne m ρ c main_v1 (by decide)).trans (src1 m ρ c)
theorem dst2 : W2 m ρ c (Proc.devRef .tc main_v3) = Cert.Spec.dstOf (F := Ideal) (E m c) :=
  (W2_of_ne m ρ c main_v3 (by decide)).trans (dst1 m ρ c)
theorem self2 : W2 m ρ c (Proc.devRef .tc main_v11) = Cert.Spec.selfOf (F := Ideal) (E m c) :=
  (W2_of_ne m ρ c main_v11 (by decide)).trans (self1 m ρ c)
theorem norm2 : W2 m ρ c (Proc.devRef .tc main_v26) = Cert.Spec.normOf (F := Ideal) (E m c) :=
  (W2_of_ne m ρ c main_v26 (by decide)).trans (norm1 m ρ c)
theorem ba2 : W2 m ρ c (Proc.devRef .tc main_arg4) = Ba m c :=
  (W2_of_ne m ρ c main_arg4 (by decide)).trans
    (StableHlo.after_of_forall_not_mem (b := Proc.devRef .tc main_arg4) _ _ (by unwritten hostOps0))

/-! ## Between the first projection and the first combination: the neighbour sum, the column and the row -/

set_option maxHeartbeats 4000000 in
theorem agg3 : W3 m ρ c (Proc.devRef .tc main_v40)
    = Cert.Spec.aggOf (F := Ideal) (Cert.Spec.dense (F := Ideal) (X m c) (Wa m c)) (E m c) := by
  show StableHlo.after hostOps1 (W2 m ρ c) (Proc.devRef .tc main_v40) = _
  after_results
  rw [src2, dst2, norm2, h2]
  rfl

theorem col3 : W3 m ρ c (Proc.devRef .tc main_v41) = Cert.Spec.colOf (F := Ideal) (Cert.Spec.selfOf (F := Ideal) (E m c)) := by
  show StableHlo.after hostOps1 (W2 m ρ c) (Proc.devRef .tc main_v41) = _
  after_results
  rw [self2]
  exact Idealize.ShloMosaic.ReshapeAsBroadcast.shapeCast_col 100000 _ _ _

theorem row3 : W3 m ρ c (Proc.devRef .tc main_v42) = Cert.Spec.rowOf (F := Ideal) (Ba m c) := by
  show StableHlo.after hostOps1 (W2 m ρ c) (Proc.devRef .tc main_v42) = _
  after_results
  rw [ba2]
  exact Idealize.ShloMosaic.ReshapeAsBroadcast.shapeCast_row 64 _ _ _

theorem h3 : W3 m ρ c (Proc.devRef .tc main_v27) = Cert.Spec.dense (F := Ideal) (X m c) (Wa m c) :=
  (StableHlo.after_of_forall_not_mem (b := Proc.devRef .tc main_v27) _ _ (by unwritten hostOps1)).trans (h2 m ρ c)

/-! ## The first combination -/

theorem layer4 : W4 m ρ c (Proc.devRef .tc main_v43) = Cert.Spec.layer (F := Ideal) (X m c) (Wa m c) (Ba m c) (E m c) := by
  refine (W4_arr m ρ c 4).trans ((Cert.KernelIdeal.RegionCombine.combine1 (V3 m ρ) c).trans ?_)
  show Cert.Spec.combine (F := Ideal) (W3 m ρ c (Proc.devRef .tc main_v40)) (W3 m ρ c (Proc.devRef .tc main_v27))
    (W3 m ρ c (Proc.devRef .tc main_v41)) (W3 m ρ c (Proc.devRef .tc main_v42)) = _
  rw [agg3, h3, col3, row3]
  rfl

/-! ## Between the first combination and the second projection: the first pooled table -/

theorem bt4 : W4 m ρ c (Proc.devRef .tc main_arg2) = Bt m c :=
  (W4_of_ne m ρ c main_arg2 (by decide)).trans <|
  (StableHlo.after_of_forall_not_mem (b := Proc.devRef .tc main_arg2) _ _ (by unwritten hostOps1)).trans <|
  (W2_of_ne m ρ c main_arg2 (by decide)).trans
    (StableHlo.after_of_forall_not_mem (b := Proc.devRef .tc main_arg2) _ _ (by unwritten hostOps0))

theorem pool5 : W5 m ρ c (Proc.devRef .tc main_v46)
    = Cert.Spec.pool (F := Ideal) (Cert.Spec.layer (F := Ideal) (X m c) (Wa m c) (Ba m c) (E m c)) (Bt m c) := by
  show StableHlo.after hostOps2 (W4 m ρ c) (Proc.devRef .tc main_v46) = _
  after_results
  rw [layer4, bt4]
  rfl

theorem layer5 : W5 m ρ c (Proc.devRef .tc main_v43) = Cert.Spec.layer (F := Ideal) (X m c) (Wa m c) (Ba m c) (E m c) :=
  (StableHlo.after_of_forall_not_mem (b := Proc.devRef .tc main_v43) _ _ (by unwritten hostOps2)).trans (layer4 m ρ c)

theorem wb5 : W5 m ρ c (Proc.devRef .tc main_arg5) = Wb m c :=
  (StableHlo.after_of_forall_not_mem (b := Proc.devRef .tc main_arg5) _ _ (by unwritten hostOps2)).trans <|
  (W4_of_ne m ρ c main_arg5 (by decide)).trans <|
  (StableHlo.after_of_forall_not_mem (b := Proc.devRef .tc main_arg5) _ _ (by unwritten hostOps1)).trans <|
  (W2_of_ne m ρ c main_arg5 (by decide)).trans
    (StableHlo.after_of_forall_not_mem (b := Proc.devRef .tc main_arg5) _ _ (by unwritten hostOps0))

/-! ## The second projection -/

theorem h6 : W6 m ρ c (Proc.devRef .tc main_v47)
    = Cert.Spec.dense (F := Ideal) (Cert.Spec.layer (F := Ideal) (X m c) (Wa m c) (Ba m c) (E m c)) (Wb m c) := by
  refine (W6_arr m ρ c 2).trans ((Cert.KernelIdeal.RegionDense.dense2 (V5 m ρ) c).trans ?_)
  show Cert.Spec.dense (F := Ideal) (W5 m ρ c (Proc.devRef .tc main_v43)) (W5 m ρ c (Proc.devRef .tc main_arg5)) = _
  rw [layer5, wb5]

/-! ## What the calls so far leave untouched of the edge list's derived vectors -/

theorem src6 : W6 m ρ c (Proc.devRef .tc main_v1) = Cert.Spec.srcOf (F := Ideal) (E m c) :=
  (W6_of_ne m ρ c main_v1 (by decide)).trans <|
  (StableHlo.after_of_forall_not_mem (b := Proc.devRef .tc main_v1) _ _ (by unwritten hostOps2)).trans <|
  (W4_of_ne m ρ c main_v1 (by decide)).trans <|
  (StableHlo.after_of_forall_not_mem (b := Proc.devRef .tc main_v1) _ _ (by unwritten hostOps1)).trans (src2 m ρ c)
theorem dst6 : W6 m ρ c (Proc.devRef .tc main_v3) = Cert.Spec.dstOf (F := Ideal) (E m c) :=
  (W6_of_ne m ρ c main_v3 (by decide)).trans <|
  (StableHlo.after_of_forall_not_mem (b := Proc.devRef .tc main_v3) _ _ (by unwritten hostOps2)).trans <|
  (W4_of_ne m ρ c main_v3 (by decide)).trans <|
  (StableHlo.after_of_forall_not_mem (b := Proc.devRef .tc main_v3) _ _ (by unwritten hostOps1)).trans (dst2 m ρ c)
theorem self6 : W6 m ρ c (Proc.devRef .tc main_v11) = Cert.Spec.selfOf (F := Ideal) (E m c) :=
  (W6_of_ne m ρ c main_v11 (by decide)).trans <|
  (StableHlo.after_of_forall_not_mem (b := Proc.devRef .tc main_v11) _ _ (by unwritten hostOps2)).trans <|
  (W4_of_ne m ρ c main_v11 (by decide)).trans <|
  (StableHlo.after_of_forall_not_mem (b := Proc.devRef .tc main_v11) _ _ (by unwritten hostOps1)).trans (self2 m ρ c)
theorem norm6 : W6 m ρ c (Proc.devRef .tc main_v26) = Cert.Spec.normOf (F := Ideal) (E m c) :=
  (W6_of_ne m ρ c main_v26 (by decide)).trans <|
  (StableHlo.after_of_forall_not_mem (b := Proc.devRef .tc main_v26) _ _ (by unwritten hostOps2)).trans <|
  (W4_of_ne m ρ c main_v26 (by decide)).trans <|
  (StableHlo.after_of_forall_not_mem (b := Proc.devRef .tc main_v26) _ _ (by unwritten hostOps1)).trans (norm2 m ρ c)
theorem bb6 : W6 m ρ c (Proc.devRef .tc main_arg6) = Bb m c :=
  (W6_of_ne m ρ c main_arg6 (by decide)).trans <|
  (StableHlo.after_of_forall_not_mem (b := Proc.devRef .tc main_arg6) _ _ (by unwritten hostOps2)).trans <|
  (W4_of_ne m ρ c main_arg6 (by decide)).trans <|
  (StableHlo.after_of_forall_not_mem (b := Proc.devRef .tc main_arg6) _ _ (by unwritten hostOps1)).trans <|
  (W2_of_ne m ρ c main_arg6 (by decide)).trans
    (StableHlo.after_of_forall_not_mem (b := Proc.devRef .tc main_arg6) _ _ (by unwritten hostOps0))

/-! ## Between the second projection and the second combination -/

set_option maxHeartbeats 4000000 in
theorem agg7 : W7 m ρ c (Proc.devRef .tc main_v60)
    = Cert.Spec.aggOf (F := Ideal)
        (Cert.Spec.dense (F := Ideal) (Cert.Spec.layer (F := Ideal) (X m c) (Wa m c) (Ba m c) (E m c)) (Wb m c)) (E m c) := by
  show StableHlo.after hostOps3 (W6 m ρ c) (Proc.devRef .tc main_v60) = _
  after_results
  rw [src6, dst6, norm6, h6]
  rfl

theorem col7 : W7 m ρ c (Proc.devRef .tc main_v61) = Cert.Spec.colOf (F := Ideal) (Cert.Spec.selfOf (F := Ideal) (E m c)) := by
  show StableHlo.after hostOps3 (W6 m ρ c) (Proc.devRef .tc main_v61) = _
  after_results
  rw [self6]
  exact Idealize.ShloMosaic.ReshapeAsBroadcast.shapeCast_col 100000 _ _ _

theorem row7 : W7 m ρ c (Proc.devRef .tc main_v62) = Cert.Spec.rowOf (F := Ideal) (Bb m c) := by
  show StableHlo.after hostOps3 (W6 m ρ c) (Proc.devRef .tc main_v62) = _
  after_results
  rw [bb6]
  exact Idealize.ShloMosaic.ReshapeAsBroadcast.shapeCast_row 64 _ _ _

theorem h7 : W7 m ρ c (Proc.devRef .tc main_v47)
    = Cert.Spec.dense (F := Ideal) (Cert.Spec.layer (F := Ideal) (X m c) (Wa m c) (Ba m c) (E m c)) (Wb m c) :=
  (StableHlo.after_of_forall_not_mem (b := Proc.devRef .tc main_v47) _ _ (by unwritten hostOps3)).trans (h6 m ρ c)

/-! ## The second combination: the first result -/

theorem out8 : W8 m ρ c (Proc.devRef .tc main_v63)
    = Cert.Spec.out0 (F := Ideal) (X m c) (E m c) (Wa m c) (Ba m c) (Wb m c) (Bb m c) := by
  refine (W8_arr m ρ c 4).trans ((Cert.KernelIdeal.RegionCombine.combine3 (V7 m ρ) c).trans ?_)
  show Cert.Spec.combine (F := Ideal) (W7 m ρ c (Proc.devRef .tc main_v60)) (W7 m ρ c (Proc.devRef .tc main_v47))
    (W7 m ρ c (Proc.devRef .tc main_v61)) (W7 m ρ c (Proc.devRef .tc main_v62)) = _
  rw [agg7, h7, col7, row7]
  rfl

/-! ## After the last call: the second pooled table and the two side by side -/

theorem bt8 : W8 m ρ c (Proc.devRef .tc main_arg2) = Bt m c :=
  (W8_of_ne m ρ c main_arg2 (by decide)).trans <|
  (StableHlo.after_of_forall_not_mem (b := Proc.devRef .tc main_arg2) _ _ (by unwritten hostOps3)).trans <|
  (W6_of_ne m ρ c main_arg2 (by decide)).trans <|
  (StableHlo.after_of_forall_not_mem (b := Proc.devRef .tc main_arg2) _ _ (by unwritten hostOps2)).trans (bt4 m ρ c)

theorem pool8 : W8 m ρ c (Proc.devRef .tc main_v46)
    = Cert.Spec.pool (F := Ideal) (Cert.Spec.layer (F := Ideal) (X m c) (Wa m c) (Ba m c) (E m c)) (Bt m c) :=
  (W8_of_ne m ρ c main_v46 (by decide)).trans <|
  (StableHlo.after_of_forall_not_mem (b := Proc.devRef .tc main_v46) _ _ (by unwritten hostOps3)).trans <|
  (W6_of_ne m ρ c main_v46 (by decide)).trans (pool5 m ρ c)

/-- The first result as @main returns it. -/
theorem res0 : W9 m ρ c (Proc.devRef .tc main_v63)
    = Cert.Spec.out0 (F := Ideal) (X m c) (E m c) (Wa m c) (Ba m c) (Wb m c) (Bb m c) :=
  (StableHlo.after_of_forall_not_mem (b := Proc.devRef .tc main_v63) _ _ (by unwritten hostOps4)).trans (out8 m ρ c)

/-- The second result as @main returns it. -/
theorem res1 : W9 m ρ c (Proc.devRef .tc main_v67)
    = Cert.Spec.out1 (F := Ideal) (X m c) (E m c) (Bt m c) (Wa m c) (Ba m c) (Wb m c) (Bb m c) := by
  show StableHlo.after hostOps4 (W8 m ρ c) (Proc.devRef .tc main_v67) = _
  after_results
  rw [pool8, out8, bt8]
  rfl

end Cert.KernelIdeal.Thread

end
-- ==== Proof.RefResult.lean ====
/-
  The reference's two results are the specification's two functions of its arguments.

  The reference computes, on the host, exactly the stages the specification names — the degree and its reciprocal
  square root from the edge list, the edges' weights, and for each layer the projection, the weighted neighbour sum, the
  self-loop term, the bias and the maximum with zero; then the two pooled tables side by side — so its run's composed
  terms unfold to `out0` and `out1` of the argument arrays.
-/
import proofs.«157126_j137438953659_1_alg».proof.Proof.Gen.ReferenceIdeal.Run
import proofs.«157126_j137438953659_1_alg».proof.Proof.SpecLayer

set_option maxRecDepth 16384

noncomputable section

namespace Cert.ReferenceIdeal.RefValue

open Cert.ReferenceIdeal Cert.ReferenceIdeal.Gen Idealize.ShloMosaic Idealize.ShloMosaic.TcCoe Idealize.SL.Sem

variable (m : (ℓ : Loc nD τ sig) → Buf (Elt Ideal) ℓ) (c : Dev nD)

set_option maxHeartbeats 4000000 in
/-- The node features the reference returns are two layers applied to x. -/
theorem res0_eq : Cert.ReferenceIdeal.Value.res_out0 (F := Ideal) m c
    = Cert.Spec.out0 (F := Ideal) (m ((c.tc : Thread nD τ).loc main_arg0)) (m ((c.tc : Thread nD τ).loc main_arg1))
        (m ((c.tc : Thread nD τ).loc main_arg3)) (m ((c.tc : Thread nD τ).loc main_arg4))
        (m ((c.tc : Thread nD τ).loc main_arg5)) (m ((c.tc : Thread nD τ).loc main_arg6)) := by
  unfold Cert.ReferenceIdeal.Value.res_out0 Cert.ReferenceIdeal.Value.res_main_v89
  rfl

set_option maxHeartbeats 4000000 in
/-- The pooled table the reference returns is the two layers' pooled features side by side. -/
theorem res1_eq : Cert.ReferenceIdeal.Value.res_out1 (F := Ideal) m c
    = Cert.Spec.out1 (F := Ideal) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) := by
  unfold Cert.ReferenceIdeal.Value.res_out1 Cert.ReferenceIdeal.Value.res_main_v93
  rfl

end Cert.ReferenceIdeal.RefValue

end
-- ==== Proof.lean ====
/-
  A two-layer graph convolution with sum pooling: the Pallas program against the jnp reference.

  Both programs compute, from node features x, an edge list e, a graph assignment `batch` and two layers' weights and
  biases: dinv, the reciprocal square root of each node's degree (edges pointing at it, plus one); per layer
  h = x · W, agg = the sum into each edge's target of the source's row of h times dinv (source) · dinv (target), and
  relu ((agg + h · dinv²) + b); the node features after two layers, and the two layers' features summed per graph, side
  by side. The degree, the gathers along edges and the sums into nodes and graphs are the same host operations in both
  programs. The programs differ in how a layer's two dense steps are carried out: the kernel program computes x · W
  block by block, ten blocks of 10000 rows, each a matrix product into a zero accumulator after a change of float
  format that is the identity on the ideal values, where the reference has one matrix product; and it computes
  relu ((agg + h · dinv²) + b) block by block with dinv² as a column and b as a row, where the reference broadcasts
  them on the host. At the ideal values both are the same sums and the same maxima, entry by entry, in the same
  order of additions, so no law that needs finite values is used and the precondition is not opened.

  The three frames: the kernel program's two are the generated frame certificates; the reference's is its generated run
  with the results dropped. The idealization rewrote nothing, so `preserves` is trivial. For `algebraic`, the kernel
  program's run names its two results at the last contents of the fold through @main's segments, which the threading
  module reads as `out0` and `out1` of the arguments; the reference's run ends at terms that unfold to the same two
  functions; the arguments agree.
-/
import proofs.«157126_j137438953659_1_alg».proof.Defs
import proofs.«157126_j137438953659_1_alg».proof.Proof.Gen.Kernel
import proofs.«157126_j137438953659_1_alg».proof.Proof.Gen.Kernel.Skeleton
import proofs.«157126_j137438953659_1_alg».proof.Proof.Gen.Kernel.Launch
import proofs.«157126_j137438953659_1_alg».proof.Proof.Gen.Kernel.Points
import proofs.«157126_j137438953659_1_alg».proof.Proof.Gen.Kernel.Frame
import proofs.«157126_j137438953659_1_alg».proof.Proof.Gen.KernelIdeal
import proofs.«157126_j137438953659_1_alg».proof.Proof.Gen.KernelIdeal.Skeleton
import proofs.«157126_j137438953659_1_alg».proof.Proof.Gen.KernelIdeal.Launch
import proofs.«157126_j137438953659_1_alg».proof.Proof.Gen.KernelIdeal.Points
import proofs.«157126_j137438953659_1_alg».proof.Proof.Gen.KernelIdeal.Frame
import proofs.«157126_j137438953659_1_alg».proof.Proof.Gen.ReferenceIdeal
import proofs.«157126_j137438953659_1_alg».proof.Proof.Gen.ReferenceIdeal.Run
import proofs.«157126_j137438953659_1_alg».proof.Proof.Gen.Pre_finite_inputs
import proofs.«157126_j137438953659_1_alg».proof.Proof.KernelRunNamed
import proofs.«157126_j137438953659_1_alg».proof.Proof.KernelThread
import proofs.«157126_j137438953659_1_alg».proof.Proof.RefResult
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with its two results named and its arguments as launched; the frame keeps the latter. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with `out0` and `out1` of the kernel program's arguments: the kernel program by its run read
    through the fold, the reference by its run's terms unfolded and the arguments' agreement. -/
theorem algebraic : Cert.algebraic_KernelIdeal_ReferenceIdeal := by
  intro m ρ m' ρ' _ hagree
  refine ⟨fun c => Cert.Spec.out0 (F := Ideal) (Cert.KernelIdeal.Thread.X m c) (Cert.KernelIdeal.Thread.E m c)
      (Cert.KernelIdeal.Thread.Wa m c) (Cert.KernelIdeal.Thread.Ba m c) (Cert.KernelIdeal.Thread.Wb m c) (Cert.KernelIdeal.Thread.Bb m c),
    fun c => Cert.Spec.out1 (F := Ideal) (Cert.KernelIdeal.Thread.X m c) (Cert.KernelIdeal.Thread.E m c) (Cert.KernelIdeal.Thread.Bt m c)
      (Cert.KernelIdeal.Thread.Wa m c) (Cert.KernelIdeal.Thread.Ba m c) (Cert.KernelIdeal.Thread.Wb m c) (Cert.KernelIdeal.Thread.Bb m c),
    ?_, ?_⟩
  · exact (θ_run Cert.KernelIdeal.defs _ _).mono
      (fun r h c => ⟨(h c).1.trans (Cert.KernelIdeal.Thread.res0 m ρ c), (h c).2.1.trans (Cert.KernelIdeal.Thread.res1 m ρ c), (h c).2.2⟩)
      (Cert.KernelIdeal.GenRun.run_named (F := Ideal) m ρ)
  · refine (θ_run Cert.ReferenceIdeal.defs _ _).mono (fun r h c => ?_) (Cert.ReferenceIdeal.Value.run (F := Ideal) m' ρ')
    obtain ⟨a0, a1, a2, a3, a4, a5, a6⟩ := hagree c
    refine ⟨(h c).1.trans ?_, (h c).2.1.trans ?_, (h c).2.2⟩
    · rw [show Cert.ReferenceIdeal.Value.res_main_v89 (F := Ideal) m' c = Cert.ReferenceIdeal.Value.res_out0 (F := Ideal) m' c from rfl,
        Cert.ReferenceIdeal.RefValue.res0_eq m' c, a0, a1, a3, a4, a5, a6]
    · rw [show Cert.ReferenceIdeal.Value.res_main_v93 (F := Ideal) m' c = Cert.ReferenceIdeal.Value.res_out1 (F := Ideal) m' c from rfl,
        Cert.ReferenceIdeal.RefValue.res1_eq m' c, a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
